-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1280 : Shape := ⟨3, ![16, 4096, 1280]⟩
abbrev S16 : Shape := ⟨1, ![16]⟩
abbrev S1280x1280 : Shape := ⟨2, ![1280, 1280]⟩
abbrev S50x4x1280 : Shape := ⟨3, ![50, 4, 1280]⟩
abbrev S50x1280x4 : Shape := ⟨3, ![50, 1280, 4]⟩
abbrev S_ : Shape := ⟨0, ![]⟩

class Facts : Prop where
  bcast_S_S16x4096x1280 : S_.BroadcastsInDim S16x4096x1280 (![] : Fin 0 → Fin S16x4096x1280.rank)
  reducesTo_S16x4096x1280_S_d0_1_2 : S16x4096x1280.ReducesTo [0, 1, 2] S_
  h_S_ : 0 < S_.numel
  bcast_S_S1280x1280 : S_.BroadcastsInDim S1280x1280 (![] : Fin 0 → Fin S1280x1280.rank)
  reducesTo_S1280x1280_S_d0_1 : S1280x1280.ReducesTo [0, 1] S_
  bcast_S_S50x4x1280 : S_.BroadcastsInDim S50x4x1280 (![] : Fin 0 → Fin S50x4x1280.rank)
  reducesTo_S50x4x1280_S_d0_1_2 : S50x4x1280.ReducesTo [0, 1, 2] S_
  bcast_S_S50x1280x4 : S_.BroadcastsInDim S50x1280x4 (![] : Fin 0 → Fin S50x1280x4.rank)
  reducesTo_S50x1280x4_S_d0_1_2 : S50x1280x4.ReducesTo [0, 1, 2] S_

variable [Facts]

def fn_part1 {F : FTy → Type} [FloatOps F] (main_v13 : IVec S_ 1) (main_v16 : IVec S50x1280x4 1) : IVec S_ 1 :=
  let main_c_5 : IVec S_ 1 := constantI S_ 1 1#1
  let main_v17 : IVec S_ 1 := (fun x v => Host.reduce IntOp.andi x v reducesTo_S50x1280x4_S_d0_1_2 h_S_) main_v16 main_c_5
  let main_v18 : IVec S_ 1 := andi main_v13 main_v17
  main_v18

def fn {F : FTy → Type} [FloatOps F] (main_arg0 : FVec F S16x4096x1280 .f32) (main_arg1 : IVec S16 32) (main_arg2 : FVec F S1280x1280 .f32) (main_arg3 : FVec F S50x4x1280 .f32) (main_arg4 : FVec F S50x1280x4 .f32) : IVec S_ 1 :=
  let main_v0 : FVec F S16x4096x1280 .f32 := Host.absf main_arg0
  let main_cst : FVec F S_ .f32 := constant S_ .f32 0x7F800000#32
  let main_v1 : FVec F S16x4096x1280 .f32 := broadcastInDim S16x4096x1280 ![] bcast_S_S16x4096x1280 main_cst
  let main_v2 : IVec S16x4096x1280 1 := cmpf .olt main_v0 main_v1
  let main_c : IVec S_ 1 := constantI S_ 1 1#1
  let main_v3 : IVec S_ 1 := (fun x v => Host.reduce IntOp.andi x v reducesTo_S16x4096x1280_S_d0_1_2 h_S_) main_v2 main_c
  let main_v4 : FVec F S1280x1280 .f32 := Host.absf main_arg2
  let main_cst_0 : FVec F S_ .f32 := constant S_ .f32 0x7F800000#32
  let main_v5 : FVec F S1280x1280 .f32 := broadcastInDim S1280x1280 ![] bcast_S_S1280x1280 main_cst_0
  let main_v6 : IVec S1280x1280 1 := cmpf .olt main_v4 main_v5
  let main_c_1 : IVec S_ 1 := constantI S_ 1 1#1
  let main_v7 : IVec S_ 1 := (fun x v => Host.reduce IntOp.andi x v reducesTo_S1280x1280_S_d0_1 h_S_) main_v6 main_c_1
  let main_v8 : IVec S_ 1 := andi main_v3 main_v7
  let main_v9 : FVec F S50x4x1280 .f32 := Host.absf main_arg3
  let main_cst_2 : FVec F S_ .f32 := constant S_ .f32 0x7F800000#32
  let main_v10 : FVec F S50x4x1280 .f32 := broadcastInDim S50x4x1280 ![] bcast_S_S50x4x1280 main_cst_2
  let main_v11 : IVec S50x4x1280 1 := cmpf .olt main_v9 main_v10
  let main_c_3 : IVec S_ 1 := constantI S_ 1 1#1
  let main_v12 : IVec S_ 1 := (fun x v => Host.reduce IntOp.andi x v reducesTo_S50x4x1280_S_d0_1_2 h_S_) main_v11 main_c_3
  let main_v13 : IVec S_ 1 := andi main_v8 main_v12
  let main_v14 : FVec F S50x1280x4 .f32 := Host.absf main_arg4
  let main_cst_4 : FVec F S_ .f32 := constant S_ .f32 0x7F800000#32
  let main_v15 : FVec F S50x1280x4 .f32 := broadcastInDim S50x1280x4 ![] bcast_S_S50x1280x4 main_cst_4
  let main_v16 : IVec S50x1280x4 1 := cmpf .olt main_v14 main_v15
  fn_part1 (F := F) main_v13 main_v16
-- ==== Kernel.lean ====
abbrev S16x4096x1280 : Shape := ⟨3, ![16, 4096, 1280]⟩
abbrev S16 : Shape := ⟨1, ![16]⟩
abbrev S1280x1280 : Shape := ⟨2, ![1280, 1280]⟩
abbrev S50x4x1280 : Shape := ⟨3, ![50, 4, 1280]⟩
abbrev S50x1280x4 : Shape := ⟨3, ![50, 1280, 4]⟩
abbrev S_ : Shape := ⟨0, ![]⟩
abbrev S16x1 : Shape := ⟨2, ![16, 1]⟩
abbrev S16x4x1280 : Shape := ⟨3, ![16, 4, 1280]⟩
abbrev S16x1280x4 : Shape := ⟨3, ![16, 1280, 4]⟩
abbrev S16x1x1 : Shape := ⟨3, ![16, 1, 1]⟩
abbrev S1x512x1280 : Shape := ⟨3, ![1, 512, 1280]⟩
abbrev S1x4x1280 : Shape := ⟨3, ![1, 4, 1280]⟩
abbrev S1x1280x4 : Shape := ⟨3, ![1, 1280, 4]⟩
abbrev S512x1280 : Shape := ⟨2, ![512, 1280]⟩
abbrev S4x1280 : Shape := ⟨2, ![4, 1280]⟩
abbrev S512x4 : Shape := ⟨2, ![512, 4]⟩
abbrev S1280x4 : Shape := ⟨2, ![1280, 4]⟩

abbrev nBuf : Space → Nat
  | .hbm => 56
  | .vmem => 9
  | .smem => 0
  | _ => 0

abbrev bufTy : (tb : Table) → Fin (tcTables nBuf tb) → BufTy
  | .hbm, ⟨0, _⟩ => ⟨S16x4096x1280, .f32⟩
  | .hbm, ⟨1, _⟩ => ⟨S16, .i32⟩
  | .hbm, ⟨2, _⟩ => ⟨S1280x1280, .f32⟩
  | .hbm, ⟨3, _⟩ => ⟨S50x4x1280, .f32⟩
  | .hbm, ⟨4, _⟩ => ⟨S50x1280x4, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i1⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S16x1, .i32⟩
  | .hbm, ⟨38, _⟩ => ⟨S16x4x1280, .f32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S16x1280x4, .f32⟩
  | .hbm, ⟨48, _⟩ => ⟨S_, .f32⟩
  | .hbm, ⟨49, _⟩ => ⟨S16x1280x4, .f32⟩
  | .hbm, ⟨50, _⟩ => ⟨S16x1280x4, .f32⟩
  | .hbm, ⟨51, _⟩ => ⟨S16, .f32⟩
  | .hbm, ⟨52, _⟩ => ⟨S16x1x1, .f32⟩
  | .hbm, ⟨53, _⟩ => ⟨S16x1280x4, .f32⟩
  | .hbm, ⟨54, _⟩ => ⟨S16x1280x4, .f32⟩
  | .hbm, ⟨55, _⟩ => ⟨S16x4096x1280, .f32⟩
  | .local _ .vmem, ⟨0, _⟩ => ⟨S1x512x1280, .f32⟩
  | .local _ .vmem, ⟨1, _⟩ => ⟨S1x512x1280, .f32⟩
  | .local _ .vmem, ⟨2, _⟩ => ⟨S1280x1280, .f32⟩
  | .local _ .vmem, ⟨3, _⟩ => ⟨S1x4x1280, .f32⟩
  | .local _ .vmem, ⟨4, _⟩ => ⟨S1x4x1280, .f32⟩
  | .local _ .vmem, ⟨5, _⟩ => ⟨S1x1280x4, .f32⟩
  | .local _ .vmem, ⟨6, _⟩ => ⟨S1x1280x4, .f32⟩
  | .local _ .vmem, ⟨7, _⟩ => ⟨S1x512x1280, .f32⟩
  | .local _ .vmem, ⟨8, _⟩ => ⟨S1x512x1280, .f32⟩
  | _, _ => ⟨S16x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_v3 : Ref sig .tc := ⟨.hbm, 29, rfl⟩
abbrev main_c_2 : Ref sig .tc := ⟨.hbm, 30, rfl⟩
abbrev main_v4 : Ref sig .tc := ⟨.hbm, 31, rfl⟩
abbrev main_v5 : Ref sig .tc := ⟨.hbm, 32, rfl⟩
abbrev main_c_3 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_v11 : Ref sig .tc := ⟨.hbm, 40, rfl⟩
abbrev main_v12 : Ref sig .tc := ⟨.hbm, 41, rfl⟩
abbrev main_c_5 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1280x4 : S_.BroadcastsInDim S16x1280x4 (![] : Fin 0 → Fin S16x1280x4.rank)
  bcast_S16_S16x1x1_0 : S16.BroadcastsInDim S16x1x1 (![0] : Fin 1 → Fin S16x1x1.rank)
  bcast_S16x1x1_S16x1280x4_0_1_2 : S16x1x1.BroadcastsInDim S16x1280x4 (![0, 1, 2] : Fin 3 → Fin S16x1280x4.rank)
  inb_S1x512x1280_S1x512x1280_0_0_0 : ∀ a, (![0, 0, 0] : Fin 3 → Nat) a + S1x512x1280.size a ≤ S1x512x1280.size a
  h_S1x512x1280 : 0 < S1x512x1280.numel
  shapeCasts_S1x512x1280_S512x1280 : S1x512x1280.ShapeCasts S512x1280
  bitsLt_bf16_f32 : FTy.bits .bf16 < FTy.bits .f32
  inb_S1280x1280_S1280x1280_0_0 : ∀ a, (![0, 0] : Fin 2 → Nat) a + S1280x1280.size a ≤ S1280x1280.size a
  h_S1280x1280 : 0 < S1280x1280.numel
  inb_S1x4x1280_S1x4x1280_0_0_0 : ∀ a, (![0, 0, 0] : Fin 3 → Nat) a + S1x4x1280.size a ≤ S1x4x1280.size a
  h_S1x4x1280 : 0 < S1x4x1280.numel
  shapeCasts_S1x4x1280_S4x1280 : S1x4x1280.ShapeCasts S4x1280
  inb_S1x1280x4_S1x1280x4_0_0_0 : ∀ a, (![0, 0, 0] : Fin 3 → Nat) a + S1x1280x4.size a ≤ S1x1280x4.size a
  h_S1x1280x4 : 0 < S1x1280x4.numel
  shapeCasts_S1x1280x4_S1280x4 : S1x1280x4.ShapeCasts S1280x4
  shapeCasts_S512x1280_S1x512x1280 : S512x1280.ShapeCasts S1x512x1280
  gather_S50x4x1280_S16x1_S16x4x1280_12_0_n_n_0_1_141280_wf : GatherDims.WF S50x4x1280 S16x1 S16x4x1280 [1, 2] [0] [] [0] [] 1 ![1, 4, 1280]
  gather_S50x1280x4_S16x1_S16x1280x4_12_0_n_n_0_1_112804_wf : GatherDims.WF S50x1280x4 S16x1 S16x1280x4 [1, 2] [0] [] [0] [] 1 ![1, 1280, 4]
  dot_S512x1280_S1280x1280_S512x1280_1_1_0_0_n_n_wf : DotDims.WF S512x1280 S1280x1280 S512x1280 [1] [1] [0] [0] [] []
  dot_S512x1280_S4x1280_S512x4_1_1_0_0_n_n_wf : DotDims.WF S512x1280 S4x1280 S512x4 [1] [1] [0] [0] [] []
  dot_S512x4_S1280x4_S512x1280_1_1_0_0_n_n_wf : DotDims.WF S512x4 S1280x4 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1280.size a ≤ S16x4096x1280.size a
  hwx0_0 : ∀ i : grid0.Coords, EltTy.bits .f32 = 32 ∨ (Rect.block (s := S16x4096x1280) S1x512x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1280.size a ≤ S1280x1280.size a
  hwx0_1 : ∀ i : grid0.Coords, EltTy.bits .f32 = 32 ∨ (Rect.block (s := S1280x1280) S1280x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1280.size a ≤ S16x4x1280.size a
  hwx0_2 : ∀ i : grid0.Coords, EltTy.bits .f32 = 32 ∨ (Rect.block (s := S16x4x1280) S1x4x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1280x4.size a ≤ S16x1280x4.size a
  hwx0_3 : ∀ i : grid0.Coords, EltTy.bits .f32 = 32 ∨ (Rect.block (s := S16x1280x4) S1x1280x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1280.size a ≤ S16x4096x1280.size a
  hwx0_4 : ∀ i : grid0.Coords, EltTy.bits .f32 = 32 ∨ (Rect.block (s := S16x4096x1280) S1x512x1280.size (cc0_transform_4 i) (hinb0_4 i)).WholeWords (EltTy.packing .f32)

variable [Facts₀]

def gather_S50x4x1280_S16x1_S16x4x1280_12_0_n_n_0_1_141280 : GatherDims S50x4x1280 S16x1 S16x4x1280 where
  offsetDims := [1, 2]
  collapsedSliceDims := [0]
  operandBatchingDims := []
  startIndicesBatchingDims := []
  startIndexMap := [0]
  indexVectorDim := 1
  sliceSizes := ![1, 4, 1280]
  wf := gather_S50x4x1280_S16x1_S16x4x1280_12_0_n_n_0_1_141280_wf
def gather_S50x1280x4_S16x1_S16x1280x4_12_0_n_n_0_1_112804 : GatherDims S50x1280x4 S16x1 S16x1280x4 where
  offsetDims := [1, 2]
  collapsedSliceDims := [0]
  operandBatchingDims := []
  startIndicesBatchingDims := []
  startIndexMap := [0]
  indexVectorDim := 1
  sliceSizes := ![1, 1280, 4]
  wf := gather_S50x1280x4_S16x1_S16x1280x4_12_0_n_n_0_1_112804_wf
def dot_S512x1280_S1280x1280_S512x1280_1_1_0_0_n_n : DotDims S512x1280 S1280x1280 S512x1280 where
  lhsContracting := [1]
  rhsContracting := [1]
  lhsNonContracting := [0]
  rhsNonContracting := [0]
  lhsBatch := []
  rhsBatch := []
  wf := dot_S512x1280_S1280x1280_S512x1280_1_1_0_0_n_n_wf
def dot_S512x1280_S4x1280_S512x4_1_1_0_0_n_n : DotDims S512x1280 S4x1280 S512x4 where
  lhsContracting := [1]
  rhsContracting := [1]
  lhsNonContracting := [0]
  rhsNonContracting := [0]
  lhsBatch := []
  rhsBatch := []
  wf := dot_S512x1280_S4x1280_S512x4_1_1_0_0_n_n_wf
def dot_S512x4_S1280x4_S512x1280_1_1_0_0_n_n : DotDims S512x4 S1280x4 S512x1280 where
  lhsContracting := [1]
  rhsContracting := [1]
  lhsNonContracting := [0]
  rhsNonContracting := [0]
  lhsBatch := []
  rhsBatch := []
  wf := dot_S512x4_S1280x4_S512x1280_1_1_0_0_n_n_wf

abbrev win0_0 : Pipeline.Window sig grid0 :=
  Pipeline.Window.ofSpec (Memref.whole main_arg0) S1x512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1280x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x4x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1280x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x512x1280.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x1280 : Shape := ⟨3, ![16, 4096, 1280]⟩
abbrev S16 : Shape := ⟨1, ![16]⟩
abbrev S1280x1280 : Shape := ⟨2, ![1280, 1280]⟩
abbrev S50x4x1280 : Shape := ⟨3, ![50, 4, 1280]⟩
abbrev S50x1280x4 : Shape := ⟨3, ![50, 1280, 4]⟩
abbrev S_ : Shape := ⟨0, ![]⟩
abbrev S16x1 : Shape := ⟨2, ![16, 1]⟩
abbrev S16x4x1280 : Shape := ⟨3, ![16, 4, 1280]⟩
abbrev S16x4096x4 : Shape := ⟨3, ![16, 4096, 4]⟩
abbrev S16x1280x4 : Shape := ⟨3, ![16, 1280, 4]⟩
abbrev S16x1x1 : Shape := ⟨3, ![16, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x4096x1280, .f32⟩
  | .hbm, ⟨1, _⟩ => ⟨S16, .i32⟩
  | .hbm, ⟨2, _⟩ => ⟨S1280x1280, .f32⟩
  | .hbm, ⟨3, _⟩ => ⟨S50x4x1280, .f32⟩
  | .hbm, ⟨4, _⟩ => ⟨S50x1280x4, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16x4096x1280, .f32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S16x1, .i32⟩
  | .hbm, ⟨39, _⟩ => ⟨S16x4x1280, .f32⟩
  | .hbm, ⟨40, _⟩ => ⟨S16x4096x4, .f32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16x1, .i32⟩
  | .hbm, ⟨49, _⟩ => ⟨S16x1280x4, .f32⟩
  | .hbm, ⟨50, _⟩ => ⟨S16x4096x1280, .f32⟩
  | .hbm, ⟨51, _⟩ => ⟨S16x1x1, .i1⟩
  | .hbm, ⟨52, _⟩ => ⟨S_, .f32⟩
  | .hbm, ⟨53, _⟩ => ⟨S16x4096x1280, .f32⟩
  | .hbm, ⟨54, _⟩ => ⟨S16x4096x1280, .f32⟩
  | .hbm, ⟨55, _⟩ => ⟨S_, .f32⟩
  | .hbm, ⟨56, _⟩ => ⟨S16x4096x1280, .i1⟩
  | .hbm, ⟨57, _⟩ => ⟨S16x4096x1280, .f32⟩
  | .hbm, ⟨58, _⟩ => ⟨S16x4096x1280, .f32⟩
  | .hbm, ⟨59, _⟩ => ⟨S16x4096x1280, .f32⟩
  | _, _ => ⟨S16x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_v3 : Ref sig .tc := ⟨.hbm, 29, rfl⟩
abbrev main_v4 : Ref sig .tc := ⟨.hbm, 30, rfl⟩
abbrev main_c_2 : Ref sig .tc := ⟨.hbm, 31, rfl⟩
abbrev main_v5 : Ref sig .tc := ⟨.hbm, 32, rfl⟩
abbrev main_v6 : Ref sig .tc := ⟨.hbm, 33, rfl⟩
abbrev main_c_3 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_c_5 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst : Ref sig .tc := ⟨.hbm, 52, rfl⟩
abbrev main_v22 : Ref sig .tc := ⟨.hbm, 53, rfl⟩
abbrev main_v23 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16_S16x1x1_0 : S16.BroadcastsInDim S16x1x1 (![0] : Fin 1 → Fin S16x1x1.rank)
  bcast_S_S16x4096x1280 : S_.BroadcastsInDim S16x4096x1280 (![] : Fin 0 → Fin S16x4096x1280.rank)
  bcast_S16x1x1_S16x4096x1280_0_1_2 : S16x1x1.BroadcastsInDim S16x4096x1280 (![0, 1, 2] : Fin 3 → Fin S16x4096x1280.rank)
  dot_S16x4096x1280_S1280x1280_S16x4096x1280_2_1_01_0_n_n_wf : DotDims.WF S16x4096x1280 S1280x1280 S16x4096x1280 [2] [1] [0, 1] [0] [] []
  gather_S50x4x1280_S16x1_S16x4x1280_12_0_n_n_0_1_141280_wf : GatherDims.WF S50x4x1280 S16x1 S16x4x1280 [1, 2] [0] [] [0] [] 1 ![1, 4, 1280]
  dot_S16x4096x1280_S16x4x1280_S16x4096x4_2_2_1_1_0_0_wf : DotDims.WF S16x4096x1280 S16x4x1280 S16x4096x4 [2] [2] [1] [1] [0] [0]
  gather_S50x1280x4_S16x1_S16x1280x4_12_0_n_n_0_1_112804_wf : GatherDims.WF S50x1280x4 S16x1 S16x1280x4 [1, 2] [0] [] [0] [] 1 ![1, 1280, 4]
  dot_S16x4096x4_S16x1280x4_S16x4096x1280_2_2_1_1_0_0_wf : DotDims.WF S16x4096x4 S16x1280x4 S16x4096x1280 [2] [2] [1] [1] [0] [0]

variable [Facts₀]

def dot_S16x4096x1280_S1280x1280_S16x4096x1280_2_1_01_0_n_n : DotDims S16x4096x1280 S1280x1280 S16x4096x1280 where
  lhsContracting := [2]
  rhsContracting := [1]
  lhsNonContracting := [0, 1]
  rhsNonContracting := [0]
  lhsBatch := []
  rhsBatch := []
  wf := dot_S16x4096x1280_S1280x1280_S16x4096x1280_2_1_01_0_n_n_wf
def gather_S50x4x1280_S16x1_S16x4x1280_12_0_n_n_0_1_141280 : GatherDims S50x4x1280 S16x1 S16x4x1280 where
  offsetDims := [1, 2]
  collapsedSliceDims := [0]
  operandBatchingDims := []
  startIndicesBatchingDims := []
  startIndexMap := [0]
  indexVectorDim := 1
  sliceSizes := ![1, 4, 1280]
  wf := gather_S50x4x1280_S16x1_S16x4x1280_12_0_n_n_0_1_141280_wf
def dot_S16x4096x1280_S16x4x1280_S16x4096x4_2_2_1_1_0_0 : DotDims S16x4096x1280 S16x4x1280 S16x4096x4 where
  lhsContracting := [2]
  rhsContracting := [2]
  lhsNonContracting := [1]
  rhsNonContracting := [1]
  lhsBatch := [0]
  rhsBatch := [0]
  wf := dot_S16x4096x1280_S16x4x1280_S16x4096x4_2_2_1_1_0_0_wf
def gather_S50x1280x4_S16x1_S16x1280x4_12_0_n_n_0_1_112804 : GatherDims S50x1280x4 S16x1 S16x1280x4 where
  offsetDims := [1, 2]
  collapsedSliceDims := [0]
  operandBatchingDims := []
  startIndicesBatchingDims := []
  startIndexMap := [0]
  indexVectorDim := 1
  sliceSizes := ![1, 1280, 4]
  wf := gather_S50x1280x4_S16x1_S16x1280x4_12_0_n_n_0_1_112804_wf
def dot_S16x4096x4_S16x1280x4_S16x4096x1280_2_2_1_1_0_0 : DotDims S16x4096x4 S16x1280x4 S16x4096x1280 where
  lhsContracting := [2]
  rhsContracting := [2]
  lhsNonContracting := [1]
  rhsNonContracting := [1]
  lhsBatch := [0]
  rhsBatch := [0]
  wf := dot_S16x4096x4_S16x1280x4_S16x4096x1280_2_2_1_1_0_0_wf

class Facts : Prop extends Facts₀ where

variable [Facts]
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.Payload.lean ====
/-
  What the kernel's body stores, read at an entry of the block.

  At a grid point the body holds a block of 512 rows of the input (as a [1, 512, 1280] array), the whole shared matrix,
  the chunk's 4 × 1280 down-projection and its 1280 × 4 up-projection. It forms three matrix products, each into a zero
  accumulator and each contracting the LAST axes of its operands (l · rᵀ): the rows by the shared matrix, the rows by the
  down-projection, and that 512 × 4 result by the up-projection; it adds the first and the third. Changes of float format
  between the products are the identity on extended reals. So entry (r, o) of the stored block is

      ∑_d x[r,d] · W[o,d]  +  ∑_k (∑_d x[r,d] · A[k,d]) · B[o,k].
-/
import proofs.«181950_j75746043232770_1_alg».proof.Proof.Gen.KernelIdeal.Skeleton
import proofs.«181950_j75746043232770_1_alg».proof.Proof.LibDotNT
import Idealize.ShloMosaic.Lib.ValueIdx
import Idealize.ShloMosaic.Lib.ValueLayout

noncomputable section

open scoped BigOperators

namespace Cert.Lora.Body

open Cert.KernelIdeal Cert.KernelIdeal.Gen Idealize.ShloMosaic Idealize.ShloMosaic.ValueIdx

/-- Rows by the shared matrix: entry (a, b) is the row's product with the matrix's row b. -/
theorem base_apply {φ₁ φ₂ : FTy} (l : FVec Ideal S512x1280 φ₁) (r : FVec Ideal S1280x1280 φ₂) (a : Fin 512) (b : Fin 1280) :
    matmul dot_S512x1280_S1280x1280_S512x1280_1_1_0_0_n_n none l r (constant S512x1280 .f32 0x00000000#32) (ix2 a b)
      = ∑ k : Fin 1280, l (ix2 a k) * r (ix2 b k) :=
  Cert.LibDotNT.matmul_zero_apply _ rfl rfl rfl rfl rfl rfl none l r a b

/-- Rows by the down-projection: entry (a, b) is the row's product with the projection's row b. -/
theorem down_apply {φ₁ φ₂ : FTy} (l : FVec Ideal S512x1280 φ₁) (r : FVec Ideal S4x1280 φ₂) (a : Fin 512) (b : Fin 4) :
    matmul dot_S512x1280_S4x1280_S512x4_1_1_0_0_n_n none l r (constant S512x4 .f32 0x00000000#32) (ix2 a b)
      = ∑ k : Fin 1280, l (ix2 a k) * r (ix2 b k) :=
  Cert.LibDotNT.matmul_zero_apply _ rfl rfl rfl rfl rfl rfl none l r a b

/-- The projected rows by the up-projection: entry (a, b) is the four numbers' product with the projection's row b. -/
theorem up_apply {φ₁ φ₂ : FTy} (l : FVec Ideal S512x4 φ₁) (r : FVec Ideal S1280x4 φ₂) (a : Fin 512) (b : Fin 1280) :
    matmul dot_S512x4_S1280x4_S512x1280_1_1_0_0_n_n none l r (constant S512x1280 .f32 0x00000000#32) (ix2 a b)
      = ∑ k : Fin 4, l (ix2 a k) * r (ix2 b k) :=
  Cert.LibDotNT.matmul_zero_apply _ rfl rfl rfl rfl rfl rfl none l r a b

/-- THE STORED BLOCK at an entry: the shared product plus the rank-4 correction, of the body's four loads. -/
theorem pay_apply (v0 : Vec Ideal S1x512x1280 .f32) (v3 : Vec Ideal S1280x1280 .f32) (v6 : Vec Ideal S1x4x1280 .f32)
    (v11 : Vec Ideal S1x1280x4 .f32) (u : Fin 1) (r : Fin 512) (o : Fin 1280) :
    k0_pay1 v0 v3 v6 v11 (ix3 u r o)
      = (∑ d : Fin 1280, v0 (ix3 (0 : Fin 1) r d) * v3 (ix2 o d))
        + ∑ k : Fin 4, (∑ d : Fin 1280, v0 (ix3 (0 : Fin 1) r d) * v6 (ix3 (0 : Fin 1) k d)) * v11 (ix3 (0 : Fin 1) o k) := by
  unfold k0_pay1
  rw [shapeCast_ab_1ab_apply, addf_apply, base_apply, up_apply]
  simp only [truncf_apply, down_apply, shapeCast_1ab_ab_apply]

end Cert.Lora.Body

end
-- ==== Proof.Spec.lean ====
/-
  A linear layer with a per-chunk low-rank correction, as ONE function of its arrays.

  The input is cut into 16 chunks of 4096 rows of 1280 features. Every row goes through the shared matrix W
  (1280 × 1280, applied as x · Wᵀ). Chunk g also carries a rank-4 correction: the row is projected down to 4 numbers by
  the chunk's 4 × 1280 matrix A[g], and those are projected up again by the chunk's 1280 × 4 matrix B[g]; the layer's
  output at (g, τ, o) is

      ∑_d x[g,τ,d] · W[o,d]  +  ∑_k (∑_d x[g,τ,d] · A[g,k,d]) · B[g,o,k].

  Which A[g], B[g] a chunk uses is read from a table of 50 candidates by the chunk's integer id: the table row is the
  id floor-divided by 4, a NEGATIVE id meaning "no correction for this chunk" (its row is set to 0 and its correction is
  switched off). The switch can be thrown in two places, and this file states both and the law that makes them one:
  either the up-projection B[g] is multiplied by the indicator (1 or 0) of "id ≥ 0" before it is used, or the finished
  correction is replaced by 0 where the id is negative. They agree entry by entry because a sum of products each of whose
  right factors is multiplied by 0 is 0, and multiplied by 1 is unchanged — laws of the extended reals that need no
  finiteness (0 · ±∞ = 0 there).

  The integer part (floor division, the sign test, the wrap of negative rows, the gather of table rows) is the same
  chain of operations wherever it is used, so it is named here once and never opened.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Lora

open Idealize.ShloMosaic Idealize.ShloMosaic.ValueIdx

/-! ## Shapes -/

abbrev S0 : Shape := ⟨0, ![]⟩
abbrev S16 : Shape := ⟨1, ![16]⟩
abbrev S16x1 : Shape := ⟨2, ![16, 1]⟩
abbrev S16x1x1 : Shape := ⟨3, ![16, 1, 1]⟩
/-- The input and the output: 16 chunks of 4096 rows of 1280 features. -/
abbrev SX : Shape := ⟨3, ![16, 4096, 1280]⟩
/-- The shared matrix, output feature by input feature. -/
abbrev SW : Shape := ⟨2, ![1280, 1280]⟩
/-- The per-chunk down-projections. -/
abbrev SA : Shape := ⟨3, ![16, 4, 1280]⟩
/-- The per-chunk up-projections. -/
abbrev SB : Shape := ⟨3, ![16, 1280, 4]⟩
/-- The table of 50 down-projections. -/
abbrev SWd : Shape := ⟨3, ![50, 4, 1280]⟩
/-- The table of 50 up-projections. -/
abbrev SWu : Shape := ⟨3, ![50, 1280, 4]⟩
/-- The rank-4 intermediate. -/
abbrev SD : Shape := ⟨3, ![16, 4096, 4]⟩

/-! ## The layer -/

/-- The layer's output at chunk `g`, row `τ`, output feature `o`. -/
def loraAt (x : FVec Ideal SX .f32) (W : FVec Ideal SW .f32) (A : FVec Ideal SA .f32) (B : FVec Ideal SB .f32)
    (g : Fin 16) (τ : Fin 4096) (o : Fin 1280) : EReal :=
  (∑ d : Fin 1280, x (ix3 g τ d) * W (ix2 o d))
    + ∑ k : Fin 4, (∑ d : Fin 1280, x (ix3 g τ d) * A (ix3 g k d)) * B (ix3 g o k)

/-- The layer's output array. -/
def lora (x : FVec Ideal SX .f32) (W : FVec Ideal SW .f32) (A : FVec Ideal SA .f32) (B : FVec Ideal SB .f32) :
    FVec Ideal SX .f32 :=
  fun i => loraAt x W A B (i 0) (i 1) (i 2)

theorem lora_apply (x : FVec Ideal SX .f32) (W : FVec Ideal SW .f32) (A : FVec Ideal SA .f32) (B : FVec Ideal SB .f32)
    (g : Fin 16) (τ : Fin 4096) (o : Fin 1280) : lora x W A B (ix3 g τ o) = loraAt x W A B g τ o := rfl

/-! ## From a chunk's id to its table row, and the gathered projections -/

theorem bc_0_16 : S0.BroadcastsInDim S16 (![] : Fin 0 → Fin S16.rank) := by decide
theorem bc_16_16x1 : S16.BroadcastsInDim S16x1 (![0] : Fin 1 → Fin S16x1.rank) := by decide
theorem bc_16_16x1x1 : S16.BroadcastsInDim S16x1x1 (![0] : Fin 1 → Fin S16x1x1.rank) := by decide
theorem bc_0_B : S0.BroadcastsInDim SB (![] : Fin 0 → Fin SB.rank) := by decide
theorem bc_16x1x1_B : S16x1x1.BroadcastsInDim SB (![0, 1, 2] : Fin 3 → Fin SB.rank) := by decide
theorem bc_0_X : S0.BroadcastsInDim SX (![] : Fin 0 → Fin SX.rank) := by decide
theorem bc_16x1x1_X : S16x1x1.BroadcastsInDim SX (![0, 1, 2] : Fin 3 → Fin SX.rank) := by decide

/-- Row `r[g]` of the down-projection table, whole, for each chunk `g`. -/
def gdA : GatherDims SWd S16x1 SA where
  offsetDims := [1, 2]
  collapsedSliceDims := [0]
  operandBatchingDims := []
  startIndicesBatchingDims := []
  startIndexMap := [0]
  indexVectorDim := 1
  sliceSizes := ![1, 4, 1280]
  wf := by decide

/-- Row `r[g]` of the up-projection table, whole, for each chunk `g`. -/
def gdB : GatherDims SWu S16x1 SB where
  offsetDims := [1, 2]
  collapsedSliceDims := [0]
  operandBatchingDims := []
  startIndicesBatchingDims := []
  startIndexMap := [0]
  indexVectorDim := 1
  sliceSizes := ![1, 1280, 4]
  wf := by decide

/-- One integer in every chunk's place. -/
def splat (b : BitVec 32) : IVec S16 32 := broadcastInDim S16 ![] bc_0_16 (constantI S0 32 b)

/-- The id floor-divided by 4: the truncated quotient, less one where the remainder is not zero and the id's sign is not
    the divisor's. -/
def fdiv4 (id : IVec S16 32) : IVec S16 32 :=
  select
    (andi (cmpi .ne (signi id) (broadcastInDim S16 ![] bc_0_16 (signi (constantI S0 32 4#32))))
      (cmpi .ne (Host.remsi id (splat 4#32)) (splat 0#32)))
    (subi (Host.divsi id (splat 4#32)) (splat 1#32))
    (Host.divsi id (splat 4#32))

/-- Which chunks carry a correction: those whose id is not negative. -/
def active (id : IVec S16 32) : IVec S16 1 := cmpi .sge id (splat 0#32)

/-- The table row of each chunk: the floor quotient where the chunk is active, row 0 where it is not. -/
def safeRow (id : IVec S16 32) : IVec S16 32 := select (active id) (fdiv4 id) (splat 0#32)

/-- A negative row counted from the table's end. -/
def wrap50 (s : IVec S16 32) : IVec S16 32 := select (cmpi .slt s (splat 0#32)) (addi s (splat 50#32)) s

/-- The rows as the one-column index array the gather takes. -/
def rows (id : IVec S16 32) : IVec S16x1 32 := broadcastInDim S16x1 ![0] bc_16_16x1 (wrap50 (safeRow id))

/-- Each chunk's down-projection, gathered from the table. -/
def downW (Wd : FVec Ideal SWd .f32) (id : IVec S16 32) : FVec Ideal SA .f32 := Host.gather gdA Wd (rows id)

/-- Each chunk's up-projection as gathered from the table, before any switch. -/
def upW0 (Wu : FVec Ideal SWu .f32) (id : IVec S16 32) : FVec Ideal SB .f32 := Host.gather gdB Wu (rows id)

/-- The indicator of "chunk g is active" laid over an up-projection's entries. -/
def gate (id : IVec S16 32) : FVec Ideal SB .f32 :=
  broadcastInDim SB ![0, 1, 2] bc_16x1x1_B (broadcastInDim S16x1x1 ![0] bc_16_16x1x1 (uitofp .f32 (active id)))

/-- Each chunk's up-projection, scaled by one and switched off (multiplied by 0) where the chunk is inactive. -/
def upW (Wu : FVec Ideal SWu .f32) (id : IVec S16 32) : FVec Ideal SB .f32 :=
  mulf (mulf (upW0 Wu id) (broadcastInDim SB ![] bc_0_B (constant (F := Ideal) S0 .f32 0x3F800000#32))) (gate id)

/-- THE RESULT both programs are shown to compute: the layer with the gathered down-projections and the switched
    up-projections. -/
def out (x : FVec Ideal SX .f32) (id : IVec S16 32) (W : FVec Ideal SW .f32) (Wd : FVec Ideal SWd .f32)
    (Wu : FVec Ideal SWu .f32) : FVec Ideal SX .f32 :=
  lora x W (downW Wd id) (upW Wu id)

/-! ## The switch, thrown early or late -/

/-- The indicator of a bit, as an extended real: 1 for the set bit, 0 for the cleared one. -/
theorem indicator_one : (((1#1 : BitVec 1).toNat : ℝ) : EReal) = 1 := by norm_num
theorem indicator_zero : (((0#1 : BitVec 1).toNat : ℝ) : EReal) = 0 := by norm_num

/-- A sum of products whose right factors are each scaled by one and by a bit's indicator is the plain sum of products
    scaled by one where the bit is set, and 0 where it is cleared. -/
theorem gated_sum (d w : Fin 4 → EReal) (a : BitVec 1) :
    ∑ k : Fin 4, d k * (w k * 1 * ((a.toNat : ℝ) : EReal)) = Scalar.select a ((∑ k : Fin 4, d k * w k) * 1) 0 := by
  by_cases h : a = 1#1
  · subst h
    rw [select_one, indicator_one]
    simp only [mul_one]
  · obtain rfl := eq_zero_of_ne_one h
    rw [select_zero, indicator_zero]
    simp only [mul_zero, Finset.sum_const_zero]

end Cert.Lora

end
-- ==== Proof.Blocks.lean ====
/-
  From the blocks the kernel writes to the whole output array.

  The kernel's grid is 16 × 8: point (g, b) works on rows 512·b … 512·b + 511 of chunk g. It is handed that block of the
  input, the whole shared matrix, chunk g's down-projection and chunk g's up-projection, and it writes the block of the
  output with the same rows. By the body's arithmetic, what it writes at row r and feature o of its block is the layer
  (shared product plus rank-4 correction) at chunk g, row 512·b + r, feature o, of the four arrays the region found. The
  128 blocks tile the output (row τ of chunk g lies in the block of point (g, τ / 512)), so after the run the output array
  IS the layer of those four arrays.
-/
import proofs.«181950_j75746043232770_1_alg».proof.Proof.Gen.KernelIdeal.Value
import proofs.«181950_j75746043232770_1_alg».proof.Proof.Payload
import proofs.«181950_j75746043232770_1_alg».proof.Proof.Spec

set_option maxRecDepth 16384

noncomputable section

open scoped BigOperators

namespace Cert.Lora.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's stored value at an entry of its block is the layer at an entry of the arrays, when the four loaded blocks
    are the arrays' parts that entry's chunk and row call for: the input block's row is the entry's row, the matrix is
    whole, the two projections are the entry's chunk's, and the feature is the same. -/
theorem pay_eq_lora (x0 : Vec Ideal S1x512x1280 .f32) (x1 : Vec Ideal S1280x1280 .f32) (x2 : Vec Ideal S1x4x1280 .f32)
    (x3 : Vec Ideal S1x1280x4 .f32) (X : FVec Ideal SX .f32) (W : FVec Ideal SW .f32) (A : FVec Ideal SA .f32)
    (B : FVec Ideal SB .f32) (u : Fin 1) (r : Fin 512) (o : Fin 1280) (g : Fin 16) (τ : Fin 4096)
    (hx : ∀ d : Fin 1280, x0 (ix3 (0 : Fin 1) r d) = X (ix3 g τ d))
    (hw : ∀ o' d : Fin 1280, x1 (ix2 o' d) = W (ix2 o' d))
    (ha : ∀ (k : Fin 4) (d : Fin 1280), x2 (ix3 (0 : Fin 1) k d) = A (ix3 g k d))
    (hb : ∀ (o' : Fin 1280) (k : Fin 4), x3 (ix3 (0 : Fin 1) o' k) = B (ix3 g o' k)) :
    k0_pay1 x0 x1 x2 x3 (ix3 u r o) = lora X W A B (ix3 g τ o) := by
  rw [Cert.Lora.Body.pay_apply, lora_apply]
  unfold loraAt
  simp only [hx, hw, ha, hb]

/-- The index maps, decided over the 128 points: the input's block moves with the output's; the matrix's block is the
    whole matrix; each projection's block is the output block's chunk's; the output's block index is (chunk, row block, 0). -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) ≤ 15 ∧ win0_4.index t (1 : Fin 3) ≤ 7 :=
  (by decide +kernel : ∀ t : Fin grid0.N, _)

/-- Every (chunk, row block) is some point's. -/
theorem idx_onto : ∀ (q0 : Fin 16) (q1 : Fin 8), ∃ t : Fin cfg0.N, win0_4.index t = ![q0.val, q1.val, 0] :=
  (by decide +kernel : ∀ (q0 : Fin 16) (q1 : Fin 8), ∃ t : Fin grid0.N, win0_4.index t = ![q0.val, q1.val, 0])

/-! ## Each window's block at a point, read off its array -/

/-- Entry (u, r, o) of the output's block at point `t` is entry (g, τ, o) of the output, g the point's chunk and τ the
    block's first row plus r. -/
theorem emb_out (t : Fin cfg0.N) (u : Fin 1) (r : Fin 512) (o : Fin 1280) (g : Fin 16) (τ : Fin 4096)
    (hg : g.val = win0_4.index t (0 : Fin 3)) (hτ : τ.val = win0_4.index t (1 : Fin 3) * 512 + r.val) :
    ((cfg0.win 4).blk t).view.emb (ix3 u r o) = ix3 g τ o := by
  obtain ⟨_, _, _, _, _, _, _, _, _, _, _, e42, _, _⟩ := idx_facts t
  have hu : u.val = 0 := by omega
  funext a; apply Fin.ext
  match a with
  | ⟨0, _⟩ => show win0_4.index t (0 : Fin 3) * 1 + 1 * u.val = g.val; omega
  | ⟨1, _⟩ => show win0_4.index t (1 : Fin 3) * 512 + 1 * r.val = τ.val; omega
  | ⟨2, _⟩ => show win0_4.index t (2 : Fin 3) * 1280 + 1 * o.val = o.val; omega

/-- Row r of the input's block at point `t` is row τ of chunk g of the input. -/
theorem read_x (c : Dev nD) (t : Fin cfg0.N) (u : Fin 1) (r : Fin 512) (d : Fin 1280) (g : Fin 16) (τ : Fin 4096)
    (hg : g.val = win0_4.index t (0 : Fin 3)) (hτ : τ.val = win0_4.index t (1 : Fin 3) * 512 + r.val) :
    iblk m c 0 t (ix3 u r d) = V m c main_arg0 (ix3 g τ d) := by
  obtain ⟨e00, e01, e02, _⟩ := idx_facts t
  have hu : u.val = 0 := by omega
  have h : ((cfg0.win 0).blk t).view.emb (ix3 u r d) = ix3 g τ d := by
    funext a; apply Fin.ext
    match a with
    | ⟨0, _⟩ => show win0_0.index t (0 : Fin 3) * 1 + 1 * u.val = g.val; omega
    | ⟨1, _⟩ => show win0_0.index t (1 : Fin 3) * 512 + 1 * r.val = τ.val; omega
    | ⟨2, _⟩ => show win0_0.index t (2 : Fin 3) * 1280 + 1 * d.val = d.val; omega
  exact congrArg (V m c main_arg0) h

/-- The matrix's block at every point is the matrix. -/
theorem read_w (c : Dev nD) (t : Fin cfg0.N) (o d : Fin 1280) :
    iblk m c 1 t (ix2 o d) = V m c main_arg2 (ix2 o d) := by
  obtain ⟨_, _, _, e10, e11, _⟩ := idx_facts t
  have h : ((cfg0.win 1).blk t).view.emb (ix2 o d) = ix2 o d := by
    funext a; apply Fin.ext
    match a with
    | ⟨0, _⟩ => show win0_1.index t (0 : Fin 2) * 1280 + 1 * o.val = o.val; omega
    | ⟨1, _⟩ => show win0_1.index t (1 : Fin 2) * 1280 + 1 * d.val = d.val; omega
  exact congrArg (V m c main_arg2) h

/-- The down-projection's block at point `t` is chunk g's. -/
theorem read_a (c : Dev nD) (t : Fin cfg0.N) (u : Fin 1) (k : Fin 4) (d : Fin 1280) (g : Fin 16)
    (hg : g.val = win0_4.index t (0 : Fin 3)) :
    iblk m c 2 t (ix3 u k d) = V m c main_v10 (ix3 g k d) := by
  obtain ⟨_, _, _, _, _, e20, e21, e22, _⟩ := idx_facts t
  have hu : u.val = 0 := by omega
  have h : ((cfg0.win 2).blk t).view.emb (ix3 u k d) = ix3 g k d := by
    funext a; apply Fin.ext
    match a with
    | ⟨0, _⟩ => show win0_2.index t (0 : Fin 3) * 1 + 1 * u.val = g.val; omega
    | ⟨1, _⟩ => show win0_2.index t (1 : Fin 3) * 4 + 1 * k.val = k.val; omega
    | ⟨2, _⟩ => show win0_2.index t (2 : Fin 3) * 1280 + 1 * d.val = d.val; omega
  exact congrArg (V m c main_v10) h

/-- The up-projection's block at point `t` is chunk g's. -/
theorem read_b (c : Dev nD) (t : Fin cfg0.N) (u : Fin 1) (o : Fin 1280) (k : Fin 4) (g : Fin 16)
    (hg : g.val = win0_4.index t (0 : Fin 3)) :
    iblk m c 3 t (ix3 u o k) = V m c main_v23 (ix3 g o k) := by
  obtain ⟨_, _, _, _, _, _, _, _, e30, e31, e32, _⟩ := idx_facts t
  have hu : u.val = 0 := by omega
  have h : ((cfg0.win 3).blk t).view.emb (ix3 u o k) = ix3 g o k := by
    funext a; apply Fin.ext
    match a with
    | ⟨0, _⟩ => show win0_3.index t (0 : Fin 3) * 1 + 1 * u.val = g.val; omega
    | ⟨1, _⟩ => show win0_3.index t (1 : Fin 3) * 1280 + 1 * o.val = o.val; omega
    | ⟨2, _⟩ => show win0_3.index t (2 : Fin 3) * 4 + 1 * k.val = k.val; omega
  exact congrArg (V m c main_v23) h

/-! ## What a point writes back -/

/-- WHAT POINT `t` WRITES BACK is block `t` of the layer of the four arrays the region found. -/
theorem flushed_eq (c : Dev nD) (t : Fin cfg0.N) :
    (dats m 0 c).flushed 4 t = ((cfg0.win 4).blk t).view.read (Elt Ideal)
      (Cert.Lora.lora (V m c main_arg0) (V m c main_arg2) (V m c main_v10) (V m c main_v23)) := by
  rw [Value.flushed4]
  unfold out0_4
  rw [View.canon_unit_zero hz3]
  simp only [View.ld_unit_zero (S := S1x512x1280) hz3, View.ld_unit_zero (S := S1280x1280) hz2,
    View.ld_unit_zero (S := S1x4x1280) hz3, View.ld_unit_zero (S := S1x1280x4) hz3]
  funext j
  obtain ⟨u, r, o, rfl⟩ : ∃ (u : Fin 1) (r : Fin 512) (o : Fin 1280), j = ix3 u r o :=
    ⟨j 0, j 1, j 2, eq_ix3 (n0 := 1) (n1 := 512) (n2 := 1280) j⟩
  obtain ⟨_, _, _, _, _, _, _, _, _, _, _, _, b40, b41⟩ := idx_facts t
  have hr : r.val < 512 := r.isLt
  have hemb := emb_out t u r o ⟨win0_4.index t (0 : Fin 3), by omega⟩ ⟨win0_4.index t (1 : Fin 3) * 512 + r.val, by omega⟩ rfl rfl
  show k0_pay1 (iblk m c 0 t) (iblk m c 1 t) (iblk m c 2 t) (iblk m c 3 t) (ix3 u r o)
    = Cert.Lora.lora (V m c main_arg0) (V m c main_arg2) (V m c main_v10) (V m c main_v23)
        (((cfg0.win 4).blk t).view.emb (ix3 u r o))
  rw [hemb]
  exact pay_eq_lora (iblk m c 0 t) (iblk m c 1 t) (iblk m c 2 t) (iblk m c 3 t) (V m c main_arg0) (V m c main_arg2)
    (V m c main_v10) (V m c main_v23) u r o ⟨win0_4.index t (0 : Fin 3), by omega⟩
    ⟨win0_4.index t (1 : Fin 3) * 512 + r.val, by omega⟩
    (fun d => read_x m c t 0 r d _ _ rfl rfl) (fun o' d => read_w m c t o' d)
    (fun k d => read_a m c t 0 k d _ rfl) (fun o' k => read_b m c t 0 o' k _ rfl)

/-- An index of the output is in point `t`'s block iff each coordinate is in the block's range on its axis. -/
theorem mem_blk (t : Fin cfg0.N) (i : S16x4096x1280.Idx) :
    i ∈ ((cfg0.win 4).blk t).view.set ↔ ∀ a : Fin 3, win0_4.index t a * S1x512x1280.size a ≤ (i a).val
      ∧ (i a).val < win0_4.index t a * S1x512x1280.size a + S1x512x1280.size a := by
  show i ∈ ((View.whole main_v24).slice (win0_4.rect t)).set ↔ _
  rw [View.set_slice_whole, Rect.mem_set_unit]
  exact Iff.rfl

/-- The blocks tile the output: row τ of chunk g is in the block of the point whose index is (g, τ / 512, 0). -/
theorem cover (i : S16x4096x1280.Idx) :
    ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 1280 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1280 ≤ (i 2).val ∧ (i 2).val < win0_4.index t (2 : Fin 3) * 1280 + 1280; omega

/-- THE OUTPUT ARRAY after the run is the layer of the four arrays the region found. -/
theorem final (c : Dev nD) :
    (dats m 0 c).arrAt 4 cfg0.N = Cert.Lora.lora (V m c main_arg0) (V m c main_arg2) (V m c main_v10) (V m c main_v23) :=
  (dats m 0 c).arrAt_eq_of_cover 4 _ (fun t _ => flushed_eq m c t) cover

end Cert.Lora.Blocks

end
-- ==== Proof.KernelHost.lean ====
/-
  What the kernel's region finds in the two arrays the host prepares for it.

  Before the region runs, the host computes from the chunk ids the table row of each chunk (floor quotient by 4, row 0
  for a negative id, a negative row wrapped from the table's end), gathers each chunk's down-projection and up-projection
  from the two tables, and multiplies the up-projections by one and by the indicator of "the id is not negative". The
  region's third operand is the gathered down-projections and its fourth the switched up-projections: the same chain of
  operations the specification names, so each is that named term of the launch contents of the id array and a table.
-/
import proofs.«181950_j75746043232770_1_alg».proof.Proof.Gen.KernelIdeal.Frame
import proofs.«181950_j75746043232770_1_alg».proof.Proof.Spec
import Idealize.ShloMosaic.Lib.StableHlo.Run

noncomputable section

namespace Cert.Lora.KHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The region's third operand: each chunk's down-projection, gathered by the chunk's table row. -/
theorem down_eq (c : Dev nD) :
    V m c main_v10 = Cert.Lora.downW (m ((c : Thread nD τ).loc main_arg3)) (m ((c : Thread nD τ).loc main_arg1)) := by
  dsimp only [V]
  simp only [hostOps0, hostOps0_1, hostOps0_2, hostOps0_3, hostOps0_4, List.flatten_cons, List.flatten_nil,
    List.append_nil, List.cons_append, List.nil_append]
  after_results_simp
  rfl

/-- The region's fourth operand: each chunk's up-projection, gathered, scaled by one and switched by the id's sign. -/
theorem up_eq (c : Dev nD) :
    V m c main_v23 = Cert.Lora.upW (m ((c : Thread nD τ).loc main_arg4)) (m ((c : Thread nD τ).loc main_arg1)) := by
  dsimp only [V]
  simp only [hostOps0, hostOps0_1, hostOps0_2, hostOps0_3, hostOps0_4, List.flatten_cons, List.flatten_nil,
    List.append_nil, List.cons_append, List.nil_append]
  after_results_simp
  rfl

end Cert.Lora.KHost

end
-- ==== Proof.LibBatchNT.lean ====
/-
  A general lemma: a kernel's BATCHED matrix product whose two operands are contracted along their LAST axis,
  `[B, M, K]` by `[B, N, K]` into `[B, M, N]` (batch axis 0 on both sides; what `einsum('bmk,bnk->bmn')` lowers to),
  into the zero accumulator, at the ideal instance, read at an entry as a sum over `k`.
-/
import Idealize.ShloMosaic.PureOps.Ideal
import Idealize.ShloMosaic.PureOps.Ideal.Laws
import Idealize.ShloMosaic.Lib.ValueIdx

noncomputable section

namespace Cert.LibBatchNT

open Idealize.ShloMosaic Idealize.ShloMosaic.ValueIdx

/-- The sum over the contraction index, as a sum over `Fin K`: the left operand is read at `(b, a, k)` and the right
    operand at `(b, n, k)`. -/
theorem batch_sum {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    {α : Type} [AddCommMonoid α] (f : (⟨3, ![B, M, K]⟩ : Shape).Idx → (⟨3, ![B, N, K]⟩ : Shape).Idx → α)
    (b : Fin B) (a : Fin M) (n : Fin N) :
    ∑ k : d.contr.Idx, f (d.lhsIdx (ix3 b a n) k) (d.rhsIdx (ix3 b a n) k)
      = ∑ k : Fin K, f (ix3 b a k) (ix3 b n k) := by
  obtain ⟨lc, rc, ln, rn, lb, rb, wf⟩ := d
  dsimp only at h1 h2 h3 h4 h5 h6
  subst h1 h2 h3 h4 h5 h6
  -- the contraction index has one coordinate, of extent K
  have hr : (DotDims.mk [2] [2] [1] [1] [0] [0] wf :
      DotDims ⟨3, ![B, M, K]⟩ ⟨3, ![B, N, K]⟩ ⟨3, ![B, M, N]⟩).contr.rank = 1 := rfl
  have hs : (DotDims.mk [2] [2] [1] [1] [0] [0] wf :
      DotDims ⟨3, ![B, M, K]⟩ ⟨3, ![B, N, K]⟩ ⟨3, ![B, M, N]⟩).contr.size ⟨0, by omega⟩ = K := rfl
  rw [← Equiv.sum_comp (contrEquiv1 _ K hr hs).symm]
  refine Finset.sum_congr rfl fun k _ => ?_
  congr 1
  · -- the left operand's index, axis by axis: batch, row, contraction
    funext c
    match c with
    | ⟨0, _⟩ => exact Fin.ext rfl
    | ⟨1, _⟩ => exact Fin.ext rfl
    | ⟨2, _⟩ => exact Fin.ext rfl
  · -- the right operand's index, axis by axis: batch, column, contraction
    funext c
    match c with
    | ⟨0, _⟩ => exact Fin.ext rfl
    | ⟨1, _⟩ => exact Fin.ext rfl
    | ⟨2, _⟩ => exact Fin.ext rfl

/-- THE KERNEL'S BATCHED PRODUCT INTO THE ZERO ACCUMULATOR, at the ideal instance, at entry `(b, a, n)`. -/
theorem matmul_zero_apply {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0]) {φ₁ φ₂ : FTy}
    (prec : Option ContractPrecision) (l : FVec Ideal ⟨3, ![B, M, K]⟩ φ₁) (r : FVec Ideal ⟨3, ![B, N, K]⟩ φ₂)
    (b : Fin B) (a : Fin M) (n : Fin N) :
    matmul d prec l r (constant ⟨3, ![B, M, N]⟩ .f32 0x00000000#32) (ix3 b a n) = ∑ k : Fin K, l (ix3 b a k) * r (ix3 b n k) := by
  show FloatOps.matmul d prec l r (constant ⟨3, ![B, M, N]⟩ .f32 0x00000000#32) (ix3 b a n) = _
  rw [Ideal.matmul_constant_zero_apply]
  exact batch_sum d h1 h2 h3 h4 h5 h6 (fun i j => l i * r j) b a n

end Cert.LibBatchNT

end
-- ==== Proof.LibHostDot3.lean ====
/-
  Two host products of rank-3 operands contracted along their LAST axes, read at an entry.

  (1) A stack of `B` matrices `[B, M, K]` times ONE matrix `[N, K]` shared by the whole stack, contracted along `K`
  (`einsum('bmk,nk->bmn')`: dimension numbers contract axis 2 of the left operand with axis 1 of the right one, no batch
  axes, the left operand's free axes 0 and 1 first): entry `(b, a, n)` is `∑ k, l[b,a,k] · r[n,k]`.

  (2) A stack of matrices `[B, M, K]` times a stack `[B, N, K]`, batch axis 0 on both sides, contracted along `K`
  (`einsum('bmk,bnk->bmn')`), as the HOST's `dot_general`: entry `(b, a, n)` is `∑ k, l[b,a,k] · r[b,n,k]` (the sum
  over the contraction index is the batched lemma's; here it is put under the host operation).
-/
import Idealize.ShloMosaic.PureOps.Ideal
import Idealize.ShloMosaic.PureOps.Ideal.Laws
import Idealize.ShloMosaic.Lib.ValueIdx
import proofs.«181950_j75746043232770_1_alg».proof.Proof.LibBatchNT

noncomputable section

open scoped BigOperators

namespace Cert.LibHostDot3

open Idealize.ShloMosaic Idealize.ShloMosaic.ValueIdx

/-- The sum over the contraction index of a `[B, M, K]` by `[N, K]` product contracted along both last axes, as a sum
    over `Fin K`: the left operand is read at `(b, a, k)`, the right one at `(n, k)`. -/
theorem shared_sum {B M N K : Nat} (d : DotDims ⟨3, ![B, M, K]⟩ ⟨2, ![N, K]⟩ ⟨3, ![B, M, N]⟩)
    (h1 : d.lhsContracting = [2]) (h2 : d.rhsContracting = [1]) (h3 : d.lhsNonContracting = [0, 1])
    (h4 : d.rhsNonContracting = [0]) (h5 : d.lhsBatch = []) (h6 : d.rhsBatch = [])
    {α : Type} [AddCommMonoid α] (f : (⟨3, ![B, M, K]⟩ : Shape).Idx → (⟨2, ![N, K]⟩ : Shape).Idx → α)
    (b : Fin B) (a : Fin M) (n : Fin N) :
    ∑ k : d.contr.Idx, f (d.lhsIdx (ix3 b a n) k) (d.rhsIdx (ix3 b a n) k) = ∑ k : Fin K, f (ix3 b a k) (ix2 n k) := by
  obtain ⟨lc, rc, ln, rn, lb, rb, wf⟩ := d
  dsimp only at h1 h2 h3 h4 h5 h6
  subst h1 h2 h3 h4 h5 h6
  -- the contraction index has one coordinate, of extent K
  have hr : (DotDims.mk [2] [1] [0, 1] [0] [] [] wf :
      DotDims ⟨3, ![B, M, K]⟩ ⟨2, ![N, K]⟩ ⟨3, ![B, M, N]⟩).contr.rank = 1 := rfl
  have hs : (DotDims.mk [2] [1] [0, 1] [0] [] [] wf :
      DotDims ⟨3, ![B, M, K]⟩ ⟨2, ![N, K]⟩ ⟨3, ![B, M, N]⟩).contr.size ⟨0, by omega⟩ = K := rfl
  rw [← Equiv.sum_comp (contrEquiv1 _ K hr hs).symm]
  refine Finset.sum_congr rfl fun k _ => ?_
  congr 1
  · -- the left operand's index: stack member, row, contraction
    funext c
    match c with
    | ⟨0, _⟩ => exact Fin.ext rfl
    | ⟨1, _⟩ => exact Fin.ext rfl
    | ⟨2, _⟩ => exact Fin.ext rfl
  · -- the right operand's index: column, contraction
    funext c
    match c with
    | ⟨0, _⟩ => exact Fin.ext rfl
    | ⟨1, _⟩ => exact Fin.ext rfl

/-- The host's `dot_general` of a stack by one shared matrix, at the ideal instance, at entry `(b, a, n)`. -/
theorem shared_dotGeneral_apply {B M N K : Nat} (d : DotDims ⟨3, ![B, M, K]⟩ ⟨2, ![N, K]⟩ ⟨3, ![B, M, N]⟩)
    (h1 : d.lhsContracting = [2]) (h2 : d.rhsContracting = [1]) (h3 : d.lhsNonContracting = [0, 1])
    (h4 : d.rhsNonContracting = [0]) (h5 : d.lhsBatch = []) (h6 : d.rhsBatch = []) {φ₁ φ₂ : FTy}
    (prec : Option ContractPrecision) (l : FVec Ideal ⟨3, ![B, M, K]⟩ φ₁) (r : FVec Ideal ⟨2, ![N, K]⟩ φ₂)
    (b : Fin B) (a : Fin M) (n : Fin N) :
    Host.dotGeneral d prec l r (ix3 b a n) = ∑ k : Fin K, l (ix3 b a k) * r (ix2 n k) := by
  show FloatOps.dotGeneral d prec .single l r (ix3 b a n) = _
  rw [Ideal.dotGeneral_apply]
  exact shared_sum d h1 h2 h3 h4 h5 h6 (fun i j => l i * r j) b a n

/-- The host's batched `dot_general` contracted along the last axes, at the ideal instance, at entry `(b, a, n)`. -/
theorem batch_dotGeneral_apply {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0]) {φ₁ φ₂ : FTy}
    (prec : Option ContractPrecision) (l : FVec Ideal ⟨3, ![B, M, K]⟩ φ₁) (r : FVec Ideal ⟨3, ![B, N, K]⟩ φ₂)
    (b : Fin B) (a : Fin M) (n : Fin N) :
    Host.dotGeneral d prec l r (ix3 b a n) = ∑ k : Fin K, l (ix3 b a k) * r (ix3 b n k) := by
  show FloatOps.dotGeneral d prec .single l r (ix3 b a n) = _
  rw [Ideal.dotGeneral_apply]
  exact Cert.LibBatchNT.batch_sum d h1 h2 h3 h4 h5 h6 (fun i j => l i * r j) b a n

end Cert.LibHostDot3

end
-- ==== Proof.RefSpec.lean ====
/-
  The reference's arrangement of the layer, and that it is the specification's.

  The reference forms the shared product for the whole input at once (a stack of 16 matrices times one matrix), then the
  rank-4 intermediate for all chunks (a batched product with the gathered down-projections), then its product with the
  gathered, UNSWITCHED up-projections (batched again), scales that by one, replaces it by 0 on the chunks whose id is
  negative, and adds the shared product. Entry by entry this is the specification's layer with the switched
  up-projections: on an active chunk both read ∑_k down_k · B_k; on an inactive one the specification's sum has every right
  factor multiplied by 0, so it is 0, which is what the reference puts there.
-/
import proofs.«181950_j75746043232770_1_alg».proof.Proof.Spec
import proofs.«181950_j75746043232770_1_alg».proof.Proof.LibHostDot3

noncomputable section

open scoped BigOperators

namespace Cert.Lora

open Idealize.ShloMosaic Idealize.ShloMosaic.ValueIdx

/-- Rows of every chunk by the shared matrix: contract the feature axes, the chunk and row axes free. -/
def ddBase : DotDims SX SW SX where
  lhsContracting := [2]
  rhsContracting := [1]
  lhsNonContracting := [0, 1]
  rhsNonContracting := [0]
  lhsBatch := []
  rhsBatch := []
  wf := by decide

/-- Rows of each chunk by that chunk's down-projection: batch over chunks, contract the feature axes. -/
def ddDown : DotDims SX SA SD where
  lhsContracting := [2]
  rhsContracting := [2]
  lhsNonContracting := [1]
  rhsNonContracting := [1]
  lhsBatch := [0]
  rhsBatch := [0]
  wf := by decide

/-- Projected rows of each chunk by that chunk's up-projection: batch over chunks, contract the rank axes. -/
def ddUp : DotDims SD SB SX where
  lhsContracting := [2]
  rhsContracting := [2]
  lhsNonContracting := [1]
  rhsNonContracting := [1]
  lhsBatch := [0]
  rhsBatch := [0]
  wf := by decide

/-- The reference's result: the shared product plus the correction, the correction replaced by 0 on inactive chunks. -/
def refOut (x : FVec Ideal SX .f32) (id : IVec S16 32) (W : FVec Ideal SW .f32) (Wd : FVec Ideal SWd .f32)
    (Wu : FVec Ideal SWu .f32) : FVec Ideal SX .f32 :=
  addf (Host.dotGeneral ddBase none x W)
    (select
      (broadcastInDim SX ![0, 1, 2] bc_16x1x1_X (broadcastInDim S16x1x1 ![0] bc_16_16x1x1 (active id)))
      (mulf (Host.dotGeneral ddUp none (Host.dotGeneral ddDown none x (downW Wd id)) (upW0 Wu id))
        (broadcastInDim SX ![] bc_0_X (constant (F := Ideal) S0 .f32 0x3F800000#32)))
      (broadcastInDim SX ![] bc_0_X (constant (F := Ideal) S0 .f32 0x00000000#32)))

/-! ## A per-chunk value laid over a chunk's entries -/

/-- A value per chunk, laid as [16, 1, 1] and then over a rank-3 array with 16 chunks, reads at (g, a, b) the chunk's
    value. -/
theorem perChunk_apply {α : Type} {n1 n2 : Nat}
    (h1 : S16.BroadcastsInDim S16x1x1 (![0] : Fin 1 → Fin S16x1x1.rank))
    (h2 : S16x1x1.BroadcastsInDim ⟨3, ![16, n1, n2]⟩ (![0, 1, 2] : Fin 3 → Fin 3))
    (v : S16.Idx → α) (g : Fin 16) (a : Fin n1) (b : Fin n2) :
    broadcastInDim ⟨3, ![16, n1, n2]⟩ ![0, 1, 2] h2 (broadcastInDim S16x1x1 ![0] h1 v) (ix3 g a b) = v (ix1 g) := by
  rw [broadcastInDim_apply _ h2 _ (ix3 g a b) (ix3 g (0 : Fin 1) (0 : Fin 1)) (fun ax => by
    match ax with
    | ⟨0, _⟩ => rfl
    | ⟨1, _⟩ => rfl
    | ⟨2, _⟩ => rfl)]
  exact broadcastInDim_apply _ h1 v (ix3 g (0 : Fin 1) (0 : Fin 1)) (ix1 g) (fun ax => by
    match ax with
    | ⟨0, _⟩ => rfl)

/-- A scalar laid over any array reads the scalar everywhere. -/
theorem scalar_apply {α : Type} {t : Shape} (h : S0.BroadcastsInDim t (![] : Fin 0 → Fin t.rank)) (v : S0.Idx → α)
    (j : t.Idx) : broadcastInDim t ![] h v j = v ix0 :=
  broadcastInDim_apply _ h v j ix0 fun a => a.elim0

/-! ## The two arrangements are one function -/

/-- The switched up-projection at an entry: the gathered one, times one, times the chunk's indicator. -/
theorem upW_apply (Wu : FVec Ideal SWu .f32) (id : IVec S16 32) (g : Fin 16) (o : Fin 1280) (k : Fin 4) :
    upW Wu id (ix3 g o k) = upW0 Wu id (ix3 g o k) * 1 * (((active id (ix1 g)).toNat : ℝ) : EReal) := by
  unfold upW gate
  rw [mulf_apply, mulf_apply, perChunk_apply, scalar_apply, constant_apply, Ideal.ofBits_one_f32]
  rfl

/-- THE BRIDGE: the reference's arrangement is the specification's result. -/
theorem refOut_eq_out (x : FVec Ideal SX .f32) (id : IVec S16 32) (W : FVec Ideal SW .f32) (Wd : FVec Ideal SWd .f32)
    (Wu : FVec Ideal SWu .f32) : refOut x id W Wd Wu = out x id W Wd Wu := by
  funext i
  obtain ⟨g, τ, o, rfl⟩ : ∃ (g : Fin 16) (τ : Fin 4096) (o : Fin 1280), i = ix3 g τ o := ⟨i 0, i 1, i 2, eq_ix3 i⟩
  unfold refOut out
  rw [lora_apply]
  unfold loraAt
  rw [addf_apply, select_apply, perChunk_apply, mulf_apply, scalar_apply, scalar_apply, constant_apply, constant_apply,
    Ideal.ofBits_one_f32, Ideal.ofBits_zero_f32,
    Cert.LibHostDot3.shared_dotGeneral_apply ddBase rfl rfl rfl rfl rfl rfl,
    Cert.LibHostDot3.batch_dotGeneral_apply ddUp rfl rfl rfl rfl rfl rfl]
  simp only [Cert.LibHostDot3.batch_dotGeneral_apply ddDown rfl rfl rfl rfl rfl rfl, upW_apply]
  rw [gated_sum (fun k => ∑ d : Fin 1280, x (ix3 g τ d) * downW Wd id (ix3 g k d)) (fun k => upW0 Wu id (ix3 g o k))]

end Cert.Lora

end
-- ==== Proof.RefRun.lean ====
/-
  The reference program as a straight line of host operations, and its run read back.

  The reference calls four small functions (a floor division, three selects); each call runs the callee's operations on
  the call's own buffers, so the whole program is one list of 55 operations in order: the divisor 4 and the floor division
  of the ids by it (the truncated quotient, the two signs, the remainder, the correction by one where they disagree), the
  test "id ≥ 0" and the select of row 0 for the negative ids, the shared product, the wrap of negative rows and the gather of
  the down-projections, the batched product with them, the wrap and gather again for the up-projections, the second batched
  product, its scaling by one, the select of 0 on the inactive chunks, and the final sum. Every weakly fair execution runs
  the list in order and ends with each buffer at the list's fold over the launch contents; at the result buffer that fold
  is the reference's arrangement of the layer (`Cert.Lora.refOut`) of the five arguments, and the arguments are unchanged.
-/
import proofs.«181950_j75746043232770_1_alg».proof.Proof.Gen.ReferenceIdeal
import proofs.«181950_j75746043232770_1_alg».proof.Proof.RefSpec
import Idealize.ShloMosaic.Lib.StableHlo.Run

noncomputable section

namespace Cert.Lora.Ref

open Cert.ReferenceIdeal Cert.ReferenceIdeal.Gen Idealize.ShloMosaic Idealize.ShloMosaic.TcCoe Idealize.SL.Sem
open Idealize.ShloMosaic.StableHlo

variable {F : FTy → Type} [FloatOps F]

/-- The reference's 55 operations, in order, the callees' operations at their call sites over the calls' buffers. -/
abbrev ops : List (HloOp τ sig (Elt F)) :=
  [ nullary main_c (constantI S_ 32 4#32),
    -- the floor division of the ids by 4
    TRef.unary (.of main_c : TRef sig ⟨S_, .i32⟩) main_call0.v0 id,
    TRef.unary main_call0.v0 main_call0.v1 (broadcastInDim S16 ![] bcast_S_S16),
    TRef.binary (.of main_arg1 : TRef sig ⟨S16, .i32⟩) main_call0.v1 main_call0.v2 Host.divsi,
    TRef.unary (.of main_arg1 : TRef sig ⟨S16, .i32⟩) main_call0.v3 signi,
    TRef.unary main_call0.v0 main_call0.v4 signi,
    TRef.unary main_call0.v4 main_call0.v5 (broadcastInDim S16 ![] bcast_S_S16),
    TRef.binary main_call0.v3 main_call0.v5 main_call0.v6 (cmpi .ne),
    TRef.unary main_call0.v0 main_call0.v7 (broadcastInDim S16 ![] bcast_S_S16),
    TRef.binary (.of main_arg1 : TRef sig ⟨S16, .i32⟩) main_call0.v7 main_call0.v8 Host.remsi,
    TRef.nullary main_call0.c (constantI S_ 32 0#32),
    TRef.unary main_call0.c main_call0.v9 (broadcastInDim S16 ![] bcast_S_S16),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16 ![] bcast_S_S16),
    TRef.binary main_call0.v2 main_call0.v12 main_call0.v13 subi,
    TRef.ternary main_call0.v11 main_call0.v13 main_call0.v2 main_call0.call0.v0 select,
    -- which chunks are active, and row 0 for the others
    nullary main_c_0 (constantI S_ 32 0#32),
    unary main_c_0 main_v1 (broadcastInDim S16 ![] bcast_S_S16),
    binary main_arg1 main_v1 main_v2 (cmpi .sge),
    nullary main_c_1 (constantI S_ 32 0#32),
    TRef.unary (.of main_c_1 : TRef sig ⟨S_, .i32⟩) main_call1.v0 id,
    TRef.unary main_call1.v0 main_call1.v1 (broadcastInDim S16 ![] bcast_S_S16),
    TRef.ternary (.of main_v2 : TRef sig ⟨S16, .i1⟩) (.of main_v0 : TRef sig ⟨S16, .i32⟩) main_call1.v1 main_call1.v2 select,
    -- the shared product
    binary main_arg0 main_arg2 main_v4 (fun l r => Host.dotGeneral dot_S16x4096x1280_S1280x1280_S16x4096x1280_2_1_01_0_n_n none l r),
    -- the down-projections, gathered, and the rank-4 intermediate
    nullary main_c_2 (constantI S_ 32 0#32),
    unary main_c_2 main_v5 (broadcastInDim S16 ![] bcast_S_S16),
    binary main_v3 main_v5 main_v6 (cmpi .slt),
    nullary main_c_3 (constantI S_ 32 50#32),
    unary main_c_3 main_v7 (broadcastInDim S16 ![] bcast_S_S16),
    binary main_v3 main_v7 main_v8 addi,
    ternary main_v6 main_v8 main_v3 main_v9 select,
    unary main_v9 main_v10 (broadcastInDim S16x1 ![0] bcast_S16_S16x1_0),
    binary main_arg3 main_v10 main_v11 (fun x i => Host.gather gather_S50x4x1280_S16x1_S16x4x1280_12_0_n_n_0_1_141280 x i),
    binary main_arg0 main_v11 main_v12 (fun l r => Host.dotGeneral dot_S16x4096x1280_S16x4x1280_S16x4096x4_2_2_1_1_0_0 none l r),
    -- the up-projections, gathered, and the correction
    nullary main_c_4 (constantI S_ 32 0#32),
    unary main_c_4 main_v13 (broadcastInDim S16 ![] bcast_S_S16),
    binary main_v3 main_v13 main_v14 (cmpi .slt),
    nullary main_c_5 (constantI S_ 32 50#32),
    unary main_c_5 main_v15 (broadcastInDim S16 ![] bcast_S_S16),
    binary main_v3 main_v15 main_v16 addi,
    ternary main_v14 main_v16 main_v3 main_v17 select,
    unary main_v17 main_v18 (broadcastInDim S16x1 ![0] bcast_S16_S16x1_0),
    binary main_arg4 main_v18 main_v19 (fun x i => Host.gather gather_S50x1280x4_S16x1_S16x1280x4_12_0_n_n_0_1_112804 x i),
    binary main_v12 main_v19 main_v20 (fun l r => Host.dotGeneral dot_S16x4096x4_S16x1280x4_S16x4096x1280_2_2_1_1_0_0 none l r),
    -- scaled by one, switched off on the inactive chunks, added to the shared product
    unary main_v2 main_v21 (broadcastInDim S16x1x1 ![0] bcast_S16_S16x1x1_0),
    nullary main_cst (constant S_ .f32 0x3F800000#32),
    unary main_cst main_v22 (broadcastInDim S16x4096x1280 ![] bcast_S_S16x4096x1280),
    binary main_v20 main_v22 main_v23 mulf,
    nullary main_cst_6 (constant S_ .f32 0x00000000#32),
    TRef.unary (.of main_v21 : TRef sig ⟨S16x1x1, .i1⟩) main_call2.v0 (broadcastInDim S16x4096x1280 ![0, 1, 2] bcast_S16x1x1_S16x4096x1280_0_1_2),
    TRef.unary (.of main_cst_6 : TRef sig ⟨S_, .f32⟩) main_call2.v1 (broadcastInDim S16x4096x1280 ![] bcast_S_S16x4096x1280),
    TRef.ternary main_call2.v0 (.of main_v23 : TRef sig ⟨S16x4096x1280, .f32⟩) main_call2.v1 main_call2.v2 select,
    binary main_v4 main_v24 main_v25 addf ]

set_option maxRecDepth 4096 in
/-- @main is that straight line: the four functions' bodies unfolded at their calls, sequencing reassociated. -/
theorem main_eq (c : Dev nD) : main (F := F) c = seq ops := by
  simp only [main, fn_floor_divide.body, fn_where.body, fn_where_0.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., unary_bufs_sub ..,
    ternary_bufs_sub ..,
    binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    unary_bufs_sub .., nullary_bufs_sub .., unary_bufs_sub .., binary_bufs_sub .., nullary_bufs_sub ..,
    unary_bufs_sub .., unary_bufs_sub .., ternary_bufs_sub ..,
    binary_bufs_sub ..⟩

set_option maxRecDepth 8192 in
set_option maxHeartbeats 1000000 in
/-- The list's fold at the result buffer is the reference's arrangement of the layer, of the five arguments: the fold
    unrolled, each operation's result read where it is written. The gathers and the products stay folded: the equation
    never looks inside them. -/
theorem out_eq (V : Valuation τ sig (Elt Ideal)) :
    after ops V (main_v25 : DevRef τ sig)
      = Cert.Lora.refOut (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- Every weakly fair execution of the reference terminates with its result at the reference's arrangement of the layer
    of the launch contents of its five arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = Cert.Lora.refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.Lora.Ref

end
-- ==== Proof.lean ====
/-
  A linear layer with a per-chunk rank-4 correction: the kernel against its reference, over the extended reals.

  Input x : [16, 4096, 1280] (16 chunks of 4096 rows), a shared matrix W : [1280, 1280], an integer id per chunk, and two
  tables of 50 candidate projections, Wd : [50, 4, 1280] (down) and Wu : [50, 1280, 4] (up). Chunk g uses table row
  r[g] = id[g] floor-divided by 4 when id[g] ≥ 0, and no correction when id[g] < 0. The result at (g, τ, o) is

      ∑_d x[g,τ,d] · W[o,d]  +  [id[g] ≥ 0] · ∑_k (∑_d x[g,τ,d] · Wd[r[g],k,d]) · Wu[r[g],o,k].

  THE KERNEL computes r and gathers the two projections per chunk on the host, multiplies the gathered up-projections by
  the indicator [id[g] ≥ 0] there, and then runs a 16 × 8 grid: each point takes 512 rows of one chunk, the whole W, and the
  chunk's two projections, forms the three products (rows · Wᵀ; rows · Aᵀ; that · Bᵀ) and stores their sum as the block of
  the output with the same rows. The 128 blocks tile the output, so the output array is the layer, entry by entry, of x, W,
  the gathered down-projections and the SWITCHED up-projections (`Cert.Lora.out`).

  THE REFERENCE computes the same r and the same two gathers, forms the three products for all chunks at once with the
  UNSWITCHED up-projections, and replaces the correction by 0 on the chunks with a negative id before adding it.

  The two agree entry by entry: on a chunk with id ≥ 0 the indicator is 1 and both read the same sum; on a chunk with
  id < 0 the kernel's sum has every term's right factor multiplied by 0, so it is 0, which is what the reference writes.
  These are laws of multiplication and addition on the extended reals that hold at the infinities too, so the values'
  finiteness is not used. The integer chain and the gathers are the same operations on both sides and are never opened.
  Changes of float format inside the kernel are the identity on extended reals, and the kernel has no idealization ledger:
  the fourth claim asks nothing.
-/
import proofs.«181950_j75746043232770_1_alg».proof.Defs
import proofs.«181950_j75746043232770_1_alg».proof.Proof.Gen.Kernel
import proofs.«181950_j75746043232770_1_alg».proof.Proof.Gen.Kernel.Skeleton
import proofs.«181950_j75746043232770_1_alg».proof.Proof.Gen.Kernel.Launch
import proofs.«181950_j75746043232770_1_alg».proof.Proof.Gen.Kernel.Points
import proofs.«181950_j75746043232770_1_alg».proof.Proof.Gen.Kernel.Frame
import proofs.«181950_j75746043232770_1_alg».proof.Proof.Gen.KernelIdeal
import proofs.«181950_j75746043232770_1_alg».proof.Proof.Gen.KernelIdeal.Skeleton
import proofs.«181950_j75746043232770_1_alg».proof.Proof.Gen.KernelIdeal.Launch
import proofs.«181950_j75746043232770_1_alg».proof.Proof.Gen.KernelIdeal.Points
import proofs.«181950_j75746043232770_1_alg».proof.Proof.Gen.KernelIdeal.Frame
import proofs.«181950_j75746043232770_1_alg».proof.Proof.Gen.KernelIdeal.Value
import proofs.«181950_j75746043232770_1_alg».proof.Proof.Gen.ReferenceIdeal
import proofs.«181950_j75746043232770_1_alg».proof.Proof.Gen.Pre_finite_inputs
import proofs.«181950_j75746043232770_1_alg».proof.Proof.Blocks
import proofs.«181950_j75746043232770_1_alg».proof.Proof.KernelHost
import proofs.«181950_j75746043232770_1_alg».proof.Proof.RefRun
import Idealize.ShloMosaic.Adequacy
import Idealize.ShloMosaic.Init

noncomputable section

namespace Cert.Proof

open Idealize.ShloMosaic Idealize.ShloMosaic.TcCoe Idealize.SL.Sem

/-! ## The kernel's result array -/

section KernelValue

open Cert.KernelIdeal Cert.KernelIdeal.Gen

/-- After the kernel's run the output array is the layer of the launch contents of the five arguments: the blocks tile
    it, and the two arrays the host prepared are the gathered down-projections and the switched up-projections. -/
theorem kernel_final (m : (ℓ : Loc nD τ sig) → Buf (Elt Ideal) ℓ) (c : Dev nD) :
    (dats m 0 c).arrAt 4 cfg0.N
      = Cert.Lora.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.Lora.Blocks.final, V_main_arg0, V_main_arg2, Cert.Lora.KHost.down_eq, Cert.Lora.KHost.up_eq]
  rfl

/-- The kernel's run, its result named. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v24)
        = Cert.Lora.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (kernel_final m c), (h c).2⟩)
    (Cert.KernelIdeal.Value.run_blocks m ρ)

end KernelValue

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Lora.Ref.run m ρ)

/-- Both runs end at the layer with the switched up-projections: the kernel's by its blocks, the reference's by the law
    that a correction whose every right factor is multiplied by the chunk's indicator is the correction switched whole. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.Lora.Ref.run m' ρ')
  rw [(hagree c).1, (hagree c).2.1, (hagree c).2.2.1, (hagree c).2.2.2.1, (hagree c).2.2.2.2]
  exact Cert.Lora.refOut_eq_out _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
